-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_

variable [Facts]

def fn_part1 {F : FTy → Type} [FloatOps F] (main_arg4 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8192x1024 .f32) (main_arg1 : FVec F S64x1024 .f32) (main_arg2 : FVec F S64 .f32) (main_arg3 : FVec F S64x64 .f32) (main_arg4 : FVec F S_ .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩
abbrev S1x64 : Shape := ⟨2, ![1, 64]⟩
abbrev S1x1 : Shape := ⟨2, ![1, 1]⟩
abbrev S8192x64 : Shape := ⟨2, ![8192, 64]⟩
abbrev S512x1024 : Shape := ⟨2, ![512, 1024]⟩
abbrev S512x64 : Shape := ⟨2, ![512, 64]⟩
abbrev S8192x8192 : Shape := ⟨2, ![8192, 8192]⟩
abbrev S1024x64 : Shape := ⟨2, ![1024, 64]⟩
abbrev S2048x64 : Shape := ⟨2, ![2048, 64]⟩
abbrev S1024x2048 : Shape := ⟨2, ![1024, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S64x64, .f32⟩
  | .hbm, ⟨4, _⟩ => ⟨S_, .f32⟩
  | .hbm, ⟨5, _⟩ => ⟨S1x64, .f32⟩
  | .hbm, ⟨6, _⟩ => ⟨S1x1, .f32⟩
  | .hbm, ⟨7, _⟩ => ⟨S8192x64, .bf16⟩
  | .hbm, ⟨8, _⟩ => ⟨S8192x64, .bf16⟩
  | .hbm, ⟨9, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S1x64, .f32⟩
  | .local _ .vmem, ⟨4, _⟩ => ⟨S64x64, .f32⟩
  | .local _ .vmem, ⟨5, _⟩ => ⟨S512x64, .bf16⟩
  | .local _ .vmem, ⟨6, _⟩ => ⟨S512x64, .bf16⟩
  | .local _ .vmem, ⟨7, _⟩ => ⟨S512x64, .bf16⟩
  | .local _ .vmem, ⟨8, _⟩ => ⟨S512x64, .bf16⟩
  | .local _ .vmem, ⟨9, _⟩ => ⟨S1024x64, .bf16⟩
  | .local _ .vmem, ⟨10, _⟩ => ⟨S1024x64, .bf16⟩
  | .local _ .vmem, ⟨11, _⟩ => ⟨S2048x64, .bf16⟩
  | .local _ .vmem, ⟨12, _⟩ => ⟨S2048x64, .bf16⟩
  | .local _ .vmem, ⟨13, _⟩ => ⟨S1x1, .f32⟩
  | .local _ .vmem, ⟨14, _⟩ => ⟨S1024x2048, .f32⟩
  | .local _ .vmem, ⟨15, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S64_S1x64 : S64.ShapeCasts S1x64
  shapeCasts_S_S1x1 : S_.ShapeCasts S1x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x2048 : S1x1.Broadcasts S1024x2048
  inb_S1024x2048_S1024x2048_0_0 : ∀ a, (![0, 0] : Fin 2 → Nat) a + S1024x2048.size a ≤ S1024x2048.size a
  h_S1024x2048 : 0 < S1024x2048.numel
  dot_S512x1024_S64x1024_S512x64_1_1_0_0_n_n_wf : DotDims.WF S512x1024 S64x1024 S512x64 [1] [1] [0] [0] [] []
  dot_S512x64_S64x64_S512x64_1_0_0_1_n_n_wf : DotDims.WF S512x64 S64x64 S512x64 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S8192x64.size a
  hwx0_4 : ∀ i : grid0.Coords, EltTy.bits .bf16 = 32 ∨ (Rect.block (s := S8192x64) S512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S8192x64.size a
  hwx0_5 : ∀ i : grid0.Coords, EltTy.bits .bf16 = 32 ∨ (Rect.block (s := S8192x64) S512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .bf16 = 32 ∨ (Rect.block (s := S8192x64) S1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .bf16 = 32 ∨ (Rect.block (s := S8192x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x8192.size a
  hwx1_3 : ∀ i : grid1.Coords, EltTy.bits .f32 = 32 ∨ (Rect.block (s := S8192x8192) S1024x2048.size (cc1_transform_3 i) (hinb1_3 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_1) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S64x1024 : Shape := ⟨2, ![64, 1024]⟩
abbrev S64 : Shape := ⟨1, ![64]⟩
abbrev S64x64 : Shape := ⟨2, ![64, 64]⟩
abbrev S_ : Shape := ⟨0, ![]⟩
abbrev S1024x64 : Shape := ⟨2, ![1024, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S64x1024, .f32⟩
  | .hbm, ⟨2, _⟩ => ⟨S64, .f32⟩
  | .hbm, ⟨3, _⟩ => ⟨S64x64, .f32⟩
  | .hbm, ⟨4, _⟩ => ⟨S_, .f32⟩
  | .hbm, ⟨5, _⟩ => ⟨S1024x64, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S64x8192, .f32⟩
  | .hbm, ⟨12, _⟩ => ⟨S8192x8192, .f32⟩
  | .hbm, ⟨13, _⟩ => ⟨S8192x8192, .f32⟩
  | .hbm, ⟨14, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S64x1024_S1024x64_1_0 : S64x1024.Transposes [1, 0] S1024x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  dot_S8192x1024_S1024x64_S8192x64_1_0_0_1_n_n_wf : DotDims.WF S8192x1024 S1024x64 S8192x64 [1] [0] [0] [1] [] []
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  The mathematics both programs compute, as three functions over the extended reals.

  With x : [8192, 1024], w : [64, 1024], a bias row b : [1, 64], a matrix cw : [64, 64] and a scalar cb : [1, 1]:
    projected[n, p] = (sum over d of x[n, d] * w[p, d]) + b[0, p]
    left[n, q]      = sum over p of projected[n, p] * cw[p, q]
    out[i, j]       = (sum over q of left[i, q] * projected[j, q]) + cb[0, 0]
  The kernel computes the first two in one pass over row blocks of x and the third in a second pass over
  tiles of the output; the reference computes them as three whole-array products. No law of arithmetic is
  needed to join them: the sums are over the same index sets in the same grouping.
-/
import Idealize.ShloMosaic.Lib.ValueIdx
import Idealize.ShloMosaic.PureOps.Ideal

noncomputable section

namespace Cert.Bilinear

open Idealize.ShloMosaic Idealize.ShloMosaic.ValueIdx

/-- The projection with its bias row: entry (n, p) is the inner product of row n of x with row p of w, plus b[0, p]. -/
def projArr (x : (⟨2, ![8192, 1024]⟩ : Shape).Idx → EReal) (w : (⟨2, ![64, 1024]⟩ : Shape).Idx → EReal)
    (b : (⟨2, ![1, 64]⟩ : Shape).Idx → EReal) : (⟨2, ![8192, 64]⟩ : Shape).Idx → EReal :=
  fun i => (∑ k : Fin 1024, x (ix2 (i 0) k) * w (ix2 (i 1) k)) + b (ix2 (0 : Fin 1) (i 1))

/-- The projection times the compatibility matrix: entry (n, q) sums projected[n, p] * cw[p, q] over p. -/
def leftArr (x : (⟨2, ![8192, 1024]⟩ : Shape).Idx → EReal) (w : (⟨2, ![64, 1024]⟩ : Shape).Idx → EReal)
    (b : (⟨2, ![1, 64]⟩ : Shape).Idx → EReal) (cw : (⟨2, ![64, 64]⟩ : Shape).Idx → EReal) :
    (⟨2, ![8192, 64]⟩ : Shape).Idx → EReal :=
  fun i => ∑ p : Fin 64, projArr x w b (ix2 (i 0) p) * cw (ix2 p (i 1))

/-- The pairwise form: entry (i, j) sums L[i, q] * P[j, q] over q, plus the scalar. -/
def outArr (L P : (⟨2, ![8192, 64]⟩ : Shape).Idx → EReal) (cb : (⟨2, ![1, 1]⟩ : Shape).Idx → EReal) :
    (⟨2, ![8192, 8192]⟩ : Shape).Idx → EReal :=
  fun i => (∑ q : Fin 64, L (ix2 (i 0) q) * P (ix2 (i 1) q)) + cb (ix2 (0 : Fin 1) (0 : Fin 1))

/-- The whole result from the five arguments, the bias vector read as a row and the scalar as a 1 x 1 array. -/
def result (x : (⟨2, ![8192, 1024]⟩ : Shape).Idx → EReal) (w : (⟨2, ![64, 1024]⟩ : Shape).Idx → EReal)
    (b : (⟨1, ![64]⟩ : Shape).Idx → EReal) (cw : (⟨2, ![64, 64]⟩ : Shape).Idx → EReal)
    (cb : (⟨0, ![]⟩ : Shape).Idx → EReal) : (⟨2, ![8192, 8192]⟩ : Shape).Idx → EReal :=
  outArr (leftArr x w (fun j => b (ix1 (j 1))) cw) (projArr x w (fun j => b (ix1 (j 1)))) (fun _ => cb ix0)

end Cert.Bilinear

end
-- ==== Proof.PairValue.lean ====
/-
  The second region, read as a value. At grid point (a, b) the body multiplies a 1024 x 64 block of the left
  factor (rows 1024 a ...) by a 2048 x 64 block of the projection (rows 2048 b ...), contracting the 64 columns of
  both, adds the scalar, and writes the 1024 x 2048 tile (a, b) of the result. Entry (i, j) of the result array
  therefore ends at the sum over q of L[i, q] * P[j, q] plus the scalar, where L, P and the scalar are the three
  arrays as the region finds them: the tiles cover the 8192 x 8192 array, and each is the restriction of that one
  function.
-/
import proofs.«171821_j50500225466438_1_alg».proof.Proof.Gen.KernelIdeal.Frame
import proofs.«171821_j50500225466438_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pair

open Cert.KernelIdeal Cert.KernelIdeal.Gen Cert.Bilinear
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's product at an index -/

theorem lhs_pair_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_pair_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_pair_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_pair_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- The tile's product into a zero accumulator, at an index: rows of the two blocks paired over their 64 columns. -/
theorem pair_matmul (l : FVec Ideal S1024x64 .bf16) (r : FVec Ideal S2048x64 .bf16) (i : S1024x2048.Idx) :
    matmul dot_S1024x64_S2048x64_S1024x2048_1_1_0_0_n_n none l r (constant (F := Ideal) S1024x2048 .f32 0x00000000#32) i
      = ∑ k : Fin 64, l (ix2 (i 0) k) * r (ix2 (i 1) k) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun k _ => ?_
  have hk := ValueIdx.contrEquiv1_symm_val dot_S1024x64_S2048x64_S1024x2048_1_1_0_0_n_n 64 rfl rfl k
  have el : dot_S1024x64_S2048x64_S1024x2048_1_1_0_0_n_n.lhsIdx i ((ValueIdx.contrEquiv1 dot_S1024x64_S2048x64_S1024x2048_1_1_0_0_n_n 64 rfl rfl).symm k) = ix2 (i 0) k := funext fun a => Fin.ext (by
    match a with
    | ⟨0, _⟩ => exact lhs_pair_0 _ _
    | ⟨1, _⟩ => exact (lhs_pair_1 _ _).trans hk)
  have er : dot_S1024x64_S2048x64_S1024x2048_1_1_0_0_n_n.rhsIdx i ((ValueIdx.contrEquiv1 dot_S1024x64_S2048x64_S1024x2048_1_1_0_0_n_n 64 rfl rfl).symm k) = ix2 (i 1) k := funext fun a => Fin.ext (by
    match a with
    | ⟨0, _⟩ => exact rhs_pair_0 _ _
    | ⟨1, _⟩ => exact (rhs_pair_1 _ _).trans hk)
  rw [el, er]
  rfl

/-- What the body stores, at an index of the tile. -/
theorem pair_pay (v0 : Vec Ideal S1024x64 .bf16) (v2 : Vec Ideal S2048x64 .bf16) (v5 : Vec Ideal S1x1 .f32) (i : S1024x2048.Idx) :
    k1_pay1 (F := Ideal) v0 v2 v5 i = (∑ k : Fin 64, v0 (ix2 (i 0) k) * v2 (ix2 (i 1) k)) + v5 (ix2 (0 : Fin 1) (0 : Fin 1)) := by
  unfold k1_pay1
  simp only [shapeCast_self]
  rw [addf_apply, pair_matmul, broadcastTo_apply v5 broadcasts_S1x1_S1024x2048 i (ix2 (0 : Fin 1) (0 : Fin 1)) (fun a => by
    match a with
    | ⟨0, _⟩ => exact (if_pos rfl).symm
    | ⟨1, _⟩ => exact (if_pos rfl).symm)]

/-! ## The blocks the body reads, as rows of the arrays the region finds -/

variable (V : (c : Dev nD) → (b : Ref sig .tc) → Buf (Elt Ideal) ((c : Thread nD τ).loc b))

/-- The left factor, the projection and the scalar as the region finds them, at their literal types. -/
abbrev leftIn (c : Dev nD) : S8192x64.Idx → EReal := V c main_v2_1
abbrev projIn (c : Dev nD) : S8192x64.Idx → EReal := V c main_v2_0
abbrev scalIn (c : Dev nD) : S1x1.Idx → EReal := V c main_v1

/-- The printed index maps over the 8 x 4 grid: the left block moves with the tile's row index, the projection's
    block with its column index, the scalar's block stays; the tile indices stay in range. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = 0
    ∧ win1_3.index t (0 : Fin 2) ≤ 7 ∧ win1_3.index t (1 : Fin 2) ≤ 3 :=
  (by decide +kernel : ∀ t : Fin grid1.N, _)

/-- Every tile index is some grid point's. -/
theorem idx_onto : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

/-- The left block at point t is rows 1024 a ... of the left factor, a the tile's row index. -/
theorem left_blk (c : Dev nD) (t : Fin cfg1.N) (y : S1024x64.Idx) (i : S8192x64.Idx)
    (h0 : (i 0).val = win1_3.index t (0 : Fin 2) * 1024 + (y 0).val) (h1 : (i 1).val = (y 1).val) :
    (iblk1 V c 0 t : Vec Ideal S1024x64 .bf16) y = leftIn V c i := by
  obtain ⟨e0, e1, -⟩ := idx_facts t
  unfold iblk1
  rw [View.read_apply]
  show V c main_v2_1 _ = V c main_v2_1 _
  congr 1
  funext a
  apply Fin.ext
  match a with
  | ⟨0, _⟩ => show win1_0.index t (0 : Fin 2) * 1024 + 1 * (y 0).val = (i 0).val; omega
  | ⟨1, _⟩ => show win1_0.index t (1 : Fin 2) * 64 + 1 * (y 1).val = (i 1).val; omega

/-- The projection's block at point t is rows 2048 b ... of the projection, b the tile's column index. -/
theorem proj_blk (c : Dev nD) (t : Fin cfg1.N) (y : S2048x64.Idx) (i : S8192x64.Idx)
    (h0 : (i 0).val = win1_3.index t (1 : Fin 2) * 2048 + (y 0).val) (h1 : (i 1).val = (y 1).val) :
    (iblk1 V c 1 t : Vec Ideal S2048x64 .bf16) y = projIn V c i := by
  obtain ⟨-, -, e2, e3, -⟩ := idx_facts t
  unfold iblk1
  rw [View.read_apply]
  show V c main_v2_0 _ = V c main_v2_0 _
  congr 1
  funext a
  apply Fin.ext
  match a with
  | ⟨0, _⟩ => show win1_1.index t (0 : Fin 2) * 2048 + 1 * (y 0).val = (i 0).val; omega
  | ⟨1, _⟩ => show win1_1.index t (1 : Fin 2) * 64 + 1 * (y 1).val = (i 1).val; omega

/-- The scalar's block is the 1 x 1 array. -/
theorem scal_blk (c : Dev nD) (t : Fin cfg1.N) (y i : S1x1.Idx) :
    (iblk1 V c 2 t : Vec Ideal S1x1 .f32) y = scalIn V c i := by
  obtain ⟨-, -, -, -, e4, e5, -⟩ := idx_facts t
  unfold iblk1
  rw [View.read_apply]
  show V c main_v1 _ = V c main_v1 _
  congr 1
  funext a
  apply Fin.ext
  have hy0 : (y 0).val < 1 := (y 0).isLt
  have hy1 : (y 1).val < 1 := (y 1).isLt
  have hi0 : (i 0).val < 1 := (i 0).isLt
  have hi1 : (i 1).val < 1 := (i 1).isLt
  match a with
  | ⟨0, _⟩ => show win1_2.index t (0 : Fin 2) * 1 + 1 * (y 0).val = (i 0).val; omega
  | ⟨1, _⟩ => show win1_2.index t (1 : Fin 2) * 1 + 1 * (y 1).val = (i 1).val; omega

/-! ## From tiles to the array -/

/-- What point t writes back is tile t of the pairwise form of the three arrays. -/
theorem flushed_eq (c : Dev nD) (t : Fin cfg1.N) :
    (dat1 V c).flushed 3 t = ((cfg1.win 3).blk t).view.read (Elt Ideal) (outArr (leftIn V c) (projIn V c) (scalIn V c)) := by
  show (cfg1.win 3).cut (grid1.coords t) ((dat1 V c).after 3 t) = _
  rw [after1_3]
  unfold out1_3
  rw [View.canon_unit_zero hz]
  simp only [View.ld_unit_zero (S := S1024x64) hz, View.ld_unit_zero (S := S2048x64) hz, View.ld_unit_zero (S := S1x1) hz]
  funext j
  show k1_pay1 (F := Ideal) (iblk1 V c 0 t) (iblk1 V c 1 t) (iblk1 V c 2 t) j
    = outArr (leftIn V c) (projIn V c) (scalIn V c) (((cfg1.win 3).blk t).view.emb j)
  refine (pair_pay _ _ _ j).trans ?_
  unfold outArr
  have hj0 : (j 0).val < 1024 := (j 0).isLt
  have hj1 : (j 1).val < 2048 := (j 1).isLt
  have E0 : ((((cfg1.win 3).blk t).view.emb j) 0).val = win1_3.index t (0 : Fin 2) * 1024 + 1 * (j 0).val := rfl
  have E1 : ((((cfg1.win 3).blk t).view.emb j) 1).val = win1_3.index t (1 : Fin 2) * 2048 + 1 * (j 1).val := rfl
  refine congrArg₂ (· + ·) (Finset.sum_congr rfl fun k _ => congrArg₂ (· * ·) ?_ ?_) ?_
  · exact left_blk V c t _ _ (show ((((cfg1.win 3).blk t).view.emb j) 0).val = win1_3.index t (0 : Fin 2) * 1024 + (j 0).val by rw [E0]; omega) rfl
  · exact proj_blk V c t _ _ (show ((((cfg1.win 3).blk t).view.emb j) 1).val = win1_3.index t (1 : Fin 2) * 2048 + (j 1).val by rw [E1]; omega) rfl
  · exact scal_blk V c t _ _

/-- An index of the result is in point t's tile iff each coordinate is in the tile's range. -/
theorem mem_blk (t : Fin cfg1.N) (i : S8192x8192.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v3).slice (win1_3.rect t)).set ↔ _
  rw [View.set_slice_whole, Rect.mem_set_unit]
  exact Iff.rfl

/-- The tiles cover the array: index (i, j) is in tile (i / 1024, j / 2048). -/
theorem cover (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- The result array after the region: the pairwise form of the three arrays the region found. -/
theorem final (c : Dev nD) : (dat1 V c).arrAt 3 cfg1.N = outArr (leftIn V c) (projIn V c) (scalIn V c) :=
  (dat1 V c).arrAt_eq_of_cover 3 _ (fun t _ => flushed_eq V c t) cover

end Cert.KernelIdeal.Pair

end
-- ==== Proof.ProjValue.lean ====
/-
  The first region, read as a value. At grid point a the body takes rows 512 a ... of x, all of w, the bias row
  and the compatibility matrix; it stores, as block a of its first output, the rows' inner products with the rows
  of w plus the bias (the projection), and, as block a of its second output, that block times the compatibility
  matrix (the left factor). The changes of float format in between are the identity on extended reals. The
  sixteen blocks cover each 8192 x 64 output, and each is the restriction of one function of the arrays as the
  region finds them: `projArr` and `leftArr`.
-/
import proofs.«171821_j50500225466438_1_alg».proof.Proof.Gen.KernelIdeal.Frame
import proofs.«171821_j50500225466438_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen Cert.Bilinear
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The first product at an index: rows of the x block against rows of w -/

theorem lhs_rows_0 (i : S512x64.Idx) (q : dot_S512x1024_S64x1024_S512x64_1_1_0_0_n_n.contr.Idx) :
    (dot_S512x1024_S64x1024_S512x64_1_1_0_0_n_n.lhsIdx i q 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem lhs_rows_1 (i : S512x64.Idx) (q : dot_S512x1024_S64x1024_S512x64_1_1_0_0_n_n.contr.Idx) :
    (dot_S512x1024_S64x1024_S512x64_1_1_0_0_n_n.lhsIdx i q 1).val = (q ⟨0, by decide⟩).val :=
  dot_S512x1024_S64x1024_S512x64_1_1_0_0_n_n.lhsIdx_val_of_single rfl i q
theorem rhs_rows_0 (i : S512x64.Idx) (q : dot_S512x1024_S64x1024_S512x64_1_1_0_0_n_n.contr.Idx) :
    (dot_S512x1024_S64x1024_S512x64_1_1_0_0_n_n.rhsIdx i q 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem rhs_rows_1 (i : S512x64.Idx) (q : dot_S512x1024_S64x1024_S512x64_1_1_0_0_n_n.contr.Idx) :
    (dot_S512x1024_S64x1024_S512x64_1_1_0_0_n_n.rhsIdx i q 1).val = (q ⟨0, by decide⟩).val :=
  dot_S512x1024_S64x1024_S512x64_1_1_0_0_n_n.rhsIdx_val_of_single rfl i q

theorem rows_matmul (l : FVec Ideal S512x1024 .bf16) (r : FVec Ideal S64x1024 .bf16) (i : S512x64.Idx) :
    matmul dot_S512x1024_S64x1024_S512x64_1_1_0_0_n_n none l r (constant (F := Ideal) S512x64 .f32 0x00000000#32) i
      = ∑ k : Fin 1024, l (ix2 (i 0) k) * r (ix2 (i 1) k) := by
  simp only [matmul]
  rw [Ideal.matmul_constant_zero_apply, ← Equiv.sum_comp (ValueIdx.contrEquiv1 dot_S512x1024_S64x1024_S512x64_1_1_0_0_n_n 1024 rfl rfl).symm]
  refine Finset.sum_congr rfl fun k _ => ?_
  have hk := ValueIdx.contrEquiv1_symm_val dot_S512x1024_S64x1024_S512x64_1_1_0_0_n_n 1024 rfl rfl k
  have el : dot_S512x1024_S64x1024_S512x64_1_1_0_0_n_n.lhsIdx i ((ValueIdx.contrEquiv1 dot_S512x1024_S64x1024_S512x64_1_1_0_0_n_n 1024 rfl rfl).symm k) = ix2 (i 0) k := funext fun a => Fin.ext (by
    match a with
    | ⟨0, _⟩ => exact lhs_rows_0 _ _
    | ⟨1, _⟩ => exact (lhs_rows_1 _ _).trans hk)
  have er : dot_S512x1024_S64x1024_S512x64_1_1_0_0_n_n.rhsIdx i ((ValueIdx.contrEquiv1 dot_S512x1024_S64x1024_S512x64_1_1_0_0_n_n 1024 rfl rfl).symm k) = ix2 (i 1) k := funext fun a => Fin.ext (by
    match a with
    | ⟨0, _⟩ => exact rhs_rows_0 _ _
    | ⟨1, _⟩ => exact (rhs_rows_1 _ _).trans hk)
  rw [el, er]
  rfl

/-! ## The second product at an index: a row of the projection block against a column of the matrix -/

theorem lhs_cols_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_cols_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_cols_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_cols_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

theorem cols_matmul (l : FVec Ideal S512x64 .bf16) (r : FVec Ideal S64x64 .bf16) (i : S512x64.Idx) :
    matmul dot_S512x64_S64x64_S512x64_1_0_0_1_n_n none l r (constant (F := Ideal) S512x64 .f32 0x00000000#32) i
      = ∑ k : Fin 64, l (ix2 (i 0) k) * r (ix2 k (i 1)) := by
  simp only [matmul]
  rw [Ideal.matmul_constant_zero_apply, ← Equiv.sum_comp (ValueIdx.contrEquiv1 dot_S512x64_S64x64_S512x64_1_0_0_1_n_n 64 rfl rfl).symm]
  refine Finset.sum_congr rfl fun k _ => ?_
  have hk := ValueIdx.contrEquiv1_symm_val dot_S512x64_S64x64_S512x64_1_0_0_1_n_n 64 rfl rfl k
  have el : dot_S512x64_S64x64_S512x64_1_0_0_1_n_n.lhsIdx i ((ValueIdx.contrEquiv1 dot_S512x64_S64x64_S512x64_1_0_0_1_n_n 64 rfl rfl).symm k) = ix2 (i 0) k := funext fun a => Fin.ext (by
    match a with
    | ⟨0, _⟩ => exact lhs_cols_0 _ _
    | ⟨1, _⟩ => exact (lhs_cols_1 _ _).trans hk)
  have er : dot_S512x64_S64x64_S512x64_1_0_0_1_n_n.rhsIdx i ((ValueIdx.contrEquiv1 dot_S512x64_S64x64_S512x64_1_0_0_1_n_n 64 rfl rfl).symm k) = ix2 k (i 1) := funext fun a => Fin.ext (by
    match a with
    | ⟨0, _⟩ => exact (rhs_cols_0 _ _).trans hk
    | ⟨1, _⟩ => exact rhs_cols_1 _ _)
  rw [el, er]
  rfl

/-! ## What the body stores, at an index of the block -/

/-- The projection block before its change of format: row products plus the bias row. -/
theorem pay_proj (v0 : Vec Ideal S512x1024 .f32) (v2 : Vec Ideal S64x1024 .f32) (v5 : Vec Ideal S1x64 .f32) (i : S512x64.Idx) :
    k0_pay1 (F := Ideal) v0 v2 v5 i = (∑ k : Fin 1024, v0 (ix2 (i 0) k) * v2 (ix2 (i 1) k)) + v5 (ix2 (0 : Fin 1) (i 1)) := by
  unfold k0_pay1
  simp only [shapeCast_self]
  rw [addf_apply, rows_matmul, broadcastTo_apply v5 broadcasts_S1x64_S512x64 i (ix2 (0 : Fin 1) (i 1)) (fun a => by
    match a with
    | ⟨0, _⟩ => exact (if_pos rfl).symm
    | ⟨1, _⟩ => exact (if_neg (show ¬((64 : Nat) = 1) by decide)).symm)]
  rfl

/-- The first store is that block (the change of format is the identity). -/
theorem pay_first (v0 : Vec Ideal S512x1024 .f32) (v2 : Vec Ideal S64x1024 .f32) (v5 : Vec Ideal S1x64 .f32) (i : S512x64.Idx) :
    k0_pay2 (F := Ideal) v0 v2 v5 i = k0_pay1 (F := Ideal) v0 v2 v5 i := rfl

/-- The second store: the projection block times the matrix. -/
theorem pay_second (v0 : Vec Ideal S512x1024 .f32) (v2 : Vec Ideal S64x1024 .f32) (v5 : Vec Ideal S1x64 .f32) (v12 : Vec Ideal S64x64 .f32) (i : S512x64.Idx) :
    k0_pay3 (F := Ideal) v0 v2 v5 v12 i = ∑ p : Fin 64, k0_pay1 (F := Ideal) v0 v2 v5 (ix2 (i 0) p) * v12 (ix2 p (i 1)) := by
  unfold k0_pay3
  show matmul dot_S512x64_S64x64_S512x64_1_0_0_1_n_n none (truncf .bf16 (k0_pay1 (F := Ideal) v0 v2 v5) bitsLt_bf16_f32) (truncf .bf16 v12 bitsLt_bf16_f32) (constant (F := Ideal) S512x64 .f32 0x00000000#32) i = _
  rw [cols_matmul]
  rfl

/-! ## The blocks the body reads, as rows of the arrays the region finds -/

variable (V : (c : Dev nD) → (b : Ref sig .tc) → Buf (Elt Ideal) ((c : Thread nD τ).loc b))

/-- The four arrays the region reads, as it finds them, at their literal types. -/
abbrev xIn (c : Dev nD) : S8192x1024.Idx → EReal := V c main_arg0
abbrev wIn (c : Dev nD) : S64x1024.Idx → EReal := V c main_arg1
abbrev biasIn (c : Dev nD) : S1x64.Idx → EReal := V c main_v0
abbrev matIn (c : Dev nD) : S64x64.Idx → EReal := V c main_arg3

/-- The printed index maps over the 16 points: the x block and both output blocks move together down the rows;
    w, the bias row and the matrix are fetched whole. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0
    ∧ win0_5.index t (0 : Fin 2) = win0_4.index t (0 : Fin 2) ∧ win0_5.index t (1 : Fin 2) = 0
    ∧ win0_4.index t (0 : Fin 2) ≤ 15 :=
  (by decide +kernel : ∀ t : Fin grid0.N, _)

/-- Every block index is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

theorem x_blk (c : Dev nD) (t : Fin cfg0.N) (y : S512x1024.Idx) (i : S8192x1024.Idx)
    (h0 : (i 0).val = win0_4.index t (0 : Fin 2) * 512 + (y 0).val) (h1 : (i 1).val = (y 1).val) :
    (iblk0 V c 0 t : Vec Ideal S512x1024 .f32) y = xIn V c i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 512 + 1 * (y 0).val = (i 0).val; omega
  | ⟨1, _⟩ => show win0_0.index t (1 : Fin 2) * 1024 + 1 * (y 1).val = (i 1).val; omega

theorem w_blk (c : Dev nD) (t : Fin cfg0.N) (y i : S64x1024.Idx)
    (h0 : (i 0).val = (y 0).val) (h1 : (i 1).val = (y 1).val) :
    (iblk0 V c 1 t : Vec Ideal S64x1024 .f32) y = wIn V c i := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 64 + 1 * (y 0).val = (i 0).val; omega
  | ⟨1, _⟩ => show win0_1.index t (1 : Fin 2) * 1024 + 1 * (y 1).val = (i 1).val; omega

theorem bias_blk (c : Dev nD) (t : Fin cfg0.N) (y i : S1x64.Idx)
    (h0 : (i 0).val = (y 0).val) (h1 : (i 1).val = (y 1).val) :
    (iblk0 V c 2 t : Vec Ideal S1x64 .f32) y = biasIn V c i := by
  obtain ⟨-, -, -, -, e4, e5, -⟩ := idx_facts t
  unfold iblk0
  rw [View.read_apply]
  show V c main_v0 _ = V c main_v0 _
  congr 1
  funext a
  apply Fin.ext
  match a with
  | ⟨0, _⟩ => show win0_2.index t (0 : Fin 2) * 1 + 1 * (y 0).val = (i 0).val; omega
  | ⟨1, _⟩ => show win0_2.index t (1 : Fin 2) * 64 + 1 * (y 1).val = (i 1).val; omega

theorem mat_blk (c : Dev nD) (t : Fin cfg0.N) (y i : S64x64.Idx)
    (h0 : (i 0).val = (y 0).val) (h1 : (i 1).val = (y 1).val) :
    (iblk0 V c 3 t : Vec Ideal S64x64 .f32) y = matIn V c i := by
  obtain ⟨-, -, -, -, -, -, e6, e7, -⟩ := idx_facts t
  unfold iblk0
  rw [View.read_apply]
  show V c main_arg3 _ = V c main_arg3 _
  congr 1
  funext a
  apply Fin.ext
  match a with
  | ⟨0, _⟩ => show win0_3.index t (0 : Fin 2) * 64 + 1 * (y 0).val = (i 0).val; omega
  | ⟨1, _⟩ => show win0_3.index t (1 : Fin 2) * 64 + 1 * (y 1).val = (i 1).val; omega

/-- The projection block at point t is rows 512 a ... of the projection of the whole arrays. -/
theorem proj_blk (c : Dev nD) (t : Fin cfg0.N) (y : S512x64.Idx) (i : S8192x64.Idx)
    (h0 : (i 0).val = win0_4.index t (0 : Fin 2) * 512 + (y 0).val) (h1 : (i 1).val = (y 1).val) :
    k0_pay1 (F := Ideal) (iblk0 V c 0 t) (iblk0 V c 1 t) (iblk0 V c 2 t) y
      = projArr (xIn V c) (wIn V c) (biasIn V c) i := by
  refine (pay_proj _ _ _ y).trans ?_
  unfold projArr
  refine congrArg₂ (· + ·) (Finset.sum_congr rfl fun k _ => congrArg₂ (· * ·) ?_ ?_) ?_
  · exact x_blk V c t _ _ h0 rfl
  · exact w_blk V c t _ _ h1 rfl
  · exact bias_blk V c t _ _ rfl h1

/-! ## From blocks to the arrays -/

/-- What point t writes back to the first output is block t of the projection. -/
theorem flushed_proj (c : Dev nD) (t : Fin cfg0.N) :
    (dat0 V c).flushed 4 t = ((cfg0.win 4).blk t).view.read (Elt Ideal) (projArr (xIn V c) (wIn V c) (biasIn V c)) := by
  show (cfg0.win 4).cut (grid0.coords t) ((dat0 V c).after 4 t) = _
  rw [after0_4]
  unfold out0_4
  rw [View.canon_unit_zero hz]
  simp only [View.ld_unit_zero (S := S512x1024) hz, View.ld_unit_zero (S := S64x1024) hz, View.ld_unit_zero (S := S1x64) hz]
  funext j
  show k0_pay2 (F := Ideal) (iblk0 V c 0 t) (iblk0 V c 1 t) (iblk0 V c 2 t) j
    = projArr (xIn V c) (wIn V c) (biasIn V c) (((cfg0.win 4).blk t).view.emb j)
  obtain ⟨-, -, -, -, -, -, -, -, e8, -⟩ := idx_facts t
  have E0 : ((((cfg0.win 4).blk t).view.emb j) 0).val = win0_4.index t (0 : Fin 2) * 512 + 1 * (j 0).val := rfl
  have E1 : ((((cfg0.win 4).blk t).view.emb j) 1).val = win0_4.index t (1 : Fin 2) * 64 + 1 * (j 1).val := rfl
  exact proj_blk V c t j _ (by rw [E0]; omega) (by rw [E1]; omega)

/-- What point t writes back to the second output is block t of the left factor. -/
theorem flushed_left (c : Dev nD) (t : Fin cfg0.N) :
    (dat0 V c).flushed 5 t = ((cfg0.win 5).blk t).view.read (Elt Ideal) (leftArr (xIn V c) (wIn V c) (biasIn V c) (matIn V c)) := by
  show (cfg0.win 5).cut (grid0.coords t) ((dat0 V c).after 5 t) = _
  rw [after0_5]
  unfold out0_5
  rw [View.canon_unit_zero hz]
  simp only [View.ld_unit_zero (S := S512x1024) hz, View.ld_unit_zero (S := S64x1024) hz, View.ld_unit_zero (S := S1x64) hz, View.ld_unit_zero (S := S64x64) hz]
  funext j
  show k0_pay3 (F := Ideal) (iblk0 V c 0 t) (iblk0 V c 1 t) (iblk0 V c 2 t) (iblk0 V c 3 t) j
    = leftArr (xIn V c) (wIn V c) (biasIn V c) (matIn V c) (((cfg0.win 5).blk t).view.emb j)
  obtain ⟨-, -, -, -, -, -, -, -, -, e9, e10, -⟩ := idx_facts t
  have E0 : ((((cfg0.win 5).blk t).view.emb j) 0).val = win0_5.index t (0 : Fin 2) * 512 + 1 * (j 0).val := rfl
  have E1 : ((((cfg0.win 5).blk t).view.emb j) 1).val = win0_5.index t (1 : Fin 2) * 64 + 1 * (j 1).val := rfl
  refine (pay_second _ _ _ _ j).trans ?_
  unfold leftArr
  refine Finset.sum_congr rfl fun p _ => congrArg₂ (· * ·) ?_ ?_
  · exact proj_blk V c t _ _ (show ((((cfg0.win 5).blk t).view.emb j) 0).val = win0_4.index t (0 : Fin 2) * 512 + (j 0).val by rw [E0]; omega) rfl
  · exact mat_blk V c t _ _ rfl (show ((((cfg0.win 5).blk t).view.emb j) 1).val = (j 1).val by rw [E1]; omega)

theorem mem_blk_proj (t : Fin cfg0.N) (i : S8192x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v2_0).slice (win0_4.rect t)).set ↔ _
  rw [View.set_slice_whole, Rect.mem_set_unit]
  exact Iff.rfl

theorem mem_blk_left (t : Fin cfg0.N) (i : S8192x64.Idx) :
    i ∈ ((cfg0.win 5).blk t).view.set ↔ ∀ a : Fin 2, win0_5.index t a * S512x64.size a ≤ (i a).val ∧ (i a).val < win0_5.index t a * S512x64.size a + S512x64.size a := by
  show i ∈ ((View.whole main_v2_1).slice (win0_5.rect t)).set ↔ _
  rw [View.set_slice_whole, Rect.mem_set_unit]
  exact Iff.rfl

/-- The sixteen blocks cover each output: row r is in block r / 512. -/
theorem cover_proj (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk_proj]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 64 ≤ (i 1).val ∧ (i 1).val < win0_4.index t (1 : Fin 2) * 64 + 64; omega

theorem cover_left (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  obtain ⟨t, ht⟩ := idx_onto ⟨(i 0).val / 512, by omega⟩
  obtain ⟨-, -, -, -, -, -, -, -, -, e9, e10, -⟩ := idx_facts t
  have q0 : win0_4.index t (0 : Fin 2) = (i 0).val / 512 := congrFun ht 0
  refine ⟨t, flush0_5 t, ?_⟩
  rw [mem_blk_left]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 64 ≤ (i 1).val ∧ (i 1).val < win0_5.index t (1 : Fin 2) * 64 + 64; omega

/-- The first output after the region: the projection of the arrays the region found. -/
theorem final_proj (c : Dev nD) : (dat0 V c).arrAt 4 cfg0.N = projArr (xIn V c) (wIn V c) (biasIn V c) :=
  (dat0 V c).arrAt_eq_of_cover 4 _ (fun t _ => flushed_proj V c t) cover_proj

/-- The second output after the region: the left factor. -/
theorem final_left (c : Dev nD) : (dat0 V c).arrAt 5 cfg0.N = leftArr (xIn V c) (wIn V c) (biasIn V c) (matIn V c) :=
  (dat0 V c).arrAt_eq_of_cover 5 _ (fun t _ => flushed_left V c t) cover_left

end Cert.KernelIdeal.Proj

end
-- ==== Proof.KernelValue.lean ====
/-
  The idealized kernel program's result as one function of its five arguments.

  The two host reshapes before the first region only re-index: the bias vector becomes a 1 x 64 row whose entry
  (0, p) is b[p], and the scalar a 1 x 1 array. The first region finds x, w, that row and the compatibility matrix
  as launched and leaves the projection and the left factor in its two outputs; the second region finds those two
  and the 1 x 1 scalar and leaves their pairwise form in the result array. Composed, the result array ends at
  `Cert.Bilinear.result` of the arguments.
-/
import proofs.«171821_j50500225466438_1_alg».proof.Proof.KernelRun
import proofs.«171821_j50500225466438_1_alg».proof.Proof.PairValue
import proofs.«171821_j50500225466438_1_alg».proof.Proof.ProjValue
import Idealize.ShloMosaic.Lib.StableHlo.Run

set_option maxRecDepth 16384

noncomputable section

namespace Cert.KernelIdeal.Whole

open Cert.KernelIdeal Cert.KernelIdeal.Gen Cert.Bilinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arrays the first region finds -/

theorem entry_x (c : Dev nD) : Proj.xIn (V1 m ρ) c = m ((c : Thread nD τ).loc main_arg0) := by
  show StableHlo.after hostOps0 (W0 m ρ c) (Proc.devRef .tc main_arg0) = _
  dsimp only [hostOps0]; after_results

theorem entry_w (c : Dev nD) : Proj.wIn (V1 m ρ) c = m ((c : Thread nD τ).loc main_arg1) := by
  show StableHlo.after hostOps0 (W0 m ρ c) (Proc.devRef .tc main_arg1) = _
  dsimp only [hostOps0]; after_results

theorem entry_mat (c : Dev nD) : Proj.matIn (V1 m ρ) c = m ((c : Thread nD τ).loc main_arg3) := by
  show StableHlo.after hostOps0 (W0 m ρ c) (Proc.devRef .tc main_arg3) = _
  dsimp only [hostOps0]; after_results

/-- The reshaped bias: entry (0, p) of the row is b[p]. -/
theorem entry_bias (c : Dev nD) :
    Proj.biasIn (V1 m ρ) c = fun j => (m ((c : Thread nD τ).loc main_arg2) : S64.Idx → EReal) (ix1 (j 1)) := by
  have e : (V1 m ρ c main_v0 : S1x64.Idx → EReal) = shapeCast S1x64 (m ((c : Thread nD τ).loc main_arg2) : S64.Idx → EReal) shapeCasts_S64_S1x64 := by
    show StableHlo.after hostOps0 (W0 m ρ c) (Proc.devRef .tc main_v0) = _
    dsimp only [hostOps0]; after_results; rfl
  show (V1 m ρ c main_v0 : S1x64.Idx → EReal) = _
  rw [e]
  funext j
  refine shapeCast_apply _ _ j (ix1 (j 1)) ?_
  rw [Shape.rowMajor_val_one, Shape.rowMajor_val_two]
  have h0 : (j 0).val < 1 := (j 0).isLt
  show (j 1).val = (j 0).val * 64 + (j 1).val
  omega

/-- The reshaped scalar, as the second region finds it (the first region does not touch it). -/
theorem entry_scal (c : Dev nD) :
    Pair.scalIn (V2 m ρ) c = fun _ => (m ((c : Thread nD τ).loc main_arg4) : S_.Idx → EReal) ix0 := by
  have e1 : V2 m ρ c main_v1 = V1 m ρ c main_v1 := W2_of_ne m ρ c main_v1 (by decide)
  have e : (V1 m ρ c main_v1 : S1x1.Idx → EReal) = shapeCast S1x1 (m ((c : Thread nD τ).loc main_arg4) : S_.Idx → EReal) shapeCasts_S_S1x1 := by
    show StableHlo.after hostOps0 (W0 m ρ c) (Proc.devRef .tc main_v1) = _
    dsimp only [hostOps0]; after_results; rfl
  show (V2 m ρ c main_v1 : S1x1.Idx → EReal) = _
  rw [e1, e]
  funext j
  unfold shapeCast
  exact congrArg _ (funext fun a => a.elim0)

/-! ## The arrays the second region finds -/

theorem entry_proj (c : Dev nD) :
    Pair.projIn (V2 m ρ) c = projArr (m ((c : Thread nD τ).loc main_arg0)) (m ((c : Thread nD τ).loc main_arg1))
      (fun j => (m ((c : Thread nD τ).loc main_arg2) : S64.Idx → EReal) (ix1 (j 1))) := by
  show W2 m ρ c (Proc.devRef .tc main_v2_0) = _
  rw [show W2 m ρ c (Proc.devRef .tc main_v2_0) = (dat0 (V1 m ρ) c).arrAt 4 cfg0.N from W2_arr m ρ c 4,
    Proj.final_proj, entry_x, entry_w, entry_bias]

theorem entry_left (c : Dev nD) :
    Pair.leftIn (V2 m ρ) c = leftArr (m ((c : Thread nD τ).loc main_arg0)) (m ((c : Thread nD τ).loc main_arg1))
      (fun j => (m ((c : Thread nD τ).loc main_arg2) : S64.Idx → EReal) (ix1 (j 1))) (m ((c : Thread nD τ).loc main_arg3)) := by
  show W2 m ρ c (Proc.devRef .tc main_v2_1) = _
  rw [show W2 m ρ c (Proc.devRef .tc main_v2_1) = (dat0 (V1 m ρ) c).arrAt 5 cfg0.N from W2_arr m ρ c 5,
    Proj.final_left, entry_x, entry_w, entry_bias, entry_mat]

/-! ## The result -/

/-- What the second region leaves in the result array is `result` of the arguments. -/
theorem result_eq (c : Dev nD) :
    W3 m ρ c (Proc.devRef .tc main_v3) = result (m ((c : Thread nD τ).loc main_arg0)) (m ((c : Thread nD τ).loc main_arg1))
      (m ((c : Thread nD τ).loc main_arg2)) (m ((c : Thread nD τ).loc main_arg3)) (m ((c : Thread nD τ).loc main_arg4)) := by
  rw [show W3 m ρ c (Proc.devRef .tc main_v3) = (dat1 (V2 m ρ) c).arrAt 3 cfg1.N from W3_arr m ρ c 3,
    Pair.final, entry_left, entry_proj, entry_scal]
  rfl

/-- The run, read: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v3) = result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_main m ρ)

end Cert.KernelIdeal.Whole

end
-- ==== Proof.RefValue.lean ====
/-
  The reference program's result, read one host operation at a time, is the function `Cert.Bilinear.result` of
  the five arguments: its first product with the bias row added is the projection, its second product is the
  projection times the compatibility matrix, and its third pairs the two, rows against rows, plus the scalar.
  The transposes only rename which coordinate of an operand the contraction runs over.
-/
import proofs.«171821_j50500225466438_1_alg».proof.Proof.Gen.ReferenceIdeal.Read
import proofs.«171821_j50500225466438_1_alg».proof.Proof.Spec

noncomputable section

namespace Cert.ReferenceIdeal.RefValue

open Cert.ReferenceIdeal Cert.ReferenceIdeal.Read Idealize.ShloMosaic Idealize.ShloMosaic.ValueIdx Cert.Bilinear

/-- The fourth stage (first product plus the broadcast bias) is the projection: the contraction runs over the
    second coordinate of x and, through the transpose, over the second coordinate of w. -/
theorem stage_proj (x0 : S8192x1024.Idx → EReal) (x1 : S64x1024.Idx → EReal) (x2 : S64.Idx → EReal) :
    val_main_v4 (F := Ideal) x0 x1 x2 = projArr x0 x1 (fun j => x2 (ix1 (j 1))) := by
  funext i
  have e1 : ∀ k, lidx_main_v1 i k = ix2 (i 0) k := fun k => funext fun a => Fin.ext (by
    match a with | ⟨0, _⟩ => rfl | ⟨1, _⟩ => rfl)
  have e2 : ∀ k, idx_main_v0 (ridx_main_v1 i k) = ix2 (i 1) k := fun k => funext fun a => Fin.ext (by
    match a with | ⟨0, _⟩ => rfl | ⟨1, _⟩ => rfl)
  have e3 : idx_main_v2 (idx_main_v3 i) = ix1 (i 1) := funext fun a => Fin.ext (by
    match a with | ⟨0, _⟩ => rfl)
  rw [val_main_v4_apply, val_main_v1_apply, val_main_v3_apply, val_main_v2_apply]
  simp only [val_main_v0_apply, e1, e2, e3, Ideal.addf_def]
  rfl

/-- The fifth stage is the projection times the compatibility matrix. -/
theorem stage_left (x0 : S8192x1024.Idx → EReal) (x1 : S64x1024.Idx → EReal) (x2 : S64.Idx → EReal) (x3 : S64x64.Idx → EReal) :
    val_main_v5 (F := Ideal) x0 x1 x2 x3 = leftArr x0 x1 (fun j => x2 (ix1 (j 1))) x3 := by
  funext i
  have e1 : ∀ k, lidx_main_v5 i k = ix2 (i 0) k := fun k => funext fun a => Fin.ext (by
    match a with | ⟨0, _⟩ => rfl | ⟨1, _⟩ => rfl)
  have e2 : ∀ k, ridx_main_v5 i k = ix2 k (i 1) := fun k => funext fun a => Fin.ext (by
    match a with | ⟨0, _⟩ => rfl | ⟨1, _⟩ => rfl)
  rw [val_main_v5_apply, stage_proj]
  simp only [e1, e2]
  rfl

/-- The result: the two factors paired rows against rows (the transpose again only renames the contracted
    coordinate), plus the broadcast scalar. -/
theorem result_eq (x0 : S8192x1024.Idx → EReal) (x1 : S64x1024.Idx → EReal) (x2 : S64.Idx → EReal) (x3 : S64x64.Idx → EReal)
    (x4 : S_.Idx → EReal) :
    val_main_v9 (F := Ideal) x0 x1 x2 x3 x4 = result x0 x1 x2 x3 x4 := by
  funext i
  have e1 : ∀ k, lidx_main_v7 i k = ix2 (i 0) k := fun k => funext fun a => Fin.ext (by
    match a with | ⟨0, _⟩ => rfl | ⟨1, _⟩ => rfl)
  have e2 : ∀ k, idx_main_v6 (ridx_main_v7 i k) = ix2 (i 1) k := fun k => funext fun a => Fin.ext (by
    match a with | ⟨0, _⟩ => rfl | ⟨1, _⟩ => rfl)
  have e3 : idx_main_v8 i = ix0 := funext fun a => a.elim0
  rw [val_main_v9_apply, val_main_v7_apply, val_main_v8_apply]
  simp only [val_main_v6_apply, stage_left, stage_proj, e1, e2, e3, Ideal.addf_def]
  rfl

end Cert.ReferenceIdeal.RefValue

end
-- ==== Proof.lean ====
/-
  The certificate: a projection with bias, its product with a compatibility matrix, and the pairwise form of the
  two plus a scalar, computed by a two-pass kernel and by three whole-array products.

  Both idealized programs end with the same function of the five arguments in the result array,
  `Cert.Bilinear.result`: entry (i, j) is the sum over q of left[i, q] * projected[j, q] plus the scalar, where
  projected[n, p] is the inner product of row n of x with row p of w plus b[p] and left[n, q] the sum over p of
  projected[n, p] * cw[p, q]. The kernel's side is read off its two regions block by block (the blocks cover the
  arrays, and a change of float format is the identity on extended reals); the reference's side is read one host
  operation at a time. The two sums agree term by term, so no law beyond reading the definitions is used and the
  precondition is never opened. The idealization rewrote nothing, so its conjunct is trivial.
-/
import proofs.«171821_j50500225466438_1_alg».proof.Defs
import proofs.«171821_j50500225466438_1_alg».proof.Proof.Gen.Kernel
import proofs.«171821_j50500225466438_1_alg».proof.Proof.Gen.Kernel.Skeleton
import proofs.«171821_j50500225466438_1_alg».proof.Proof.Gen.Kernel.Launch
import proofs.«171821_j50500225466438_1_alg».proof.Proof.Gen.Kernel.Points
import proofs.«171821_j50500225466438_1_alg».proof.Proof.Gen.Kernel.Frame
import proofs.«171821_j50500225466438_1_alg».proof.Proof.Gen.KernelIdeal
import proofs.«171821_j50500225466438_1_alg».proof.Proof.Gen.KernelIdeal.Skeleton
import proofs.«171821_j50500225466438_1_alg».proof.Proof.Gen.KernelIdeal.Launch
import proofs.«171821_j50500225466438_1_alg».proof.Proof.Gen.KernelIdeal.Points
import proofs.«171821_j50500225466438_1_alg».proof.Proof.Gen.KernelIdeal.Frame
import proofs.«171821_j50500225466438_1_alg».proof.Proof.Gen.ReferenceIdeal
import proofs.«171821_j50500225466438_1_alg».proof.Proof.Gen.ReferenceIdeal.Run
import proofs.«171821_j50500225466438_1_alg».proof.Proof.Gen.ReferenceIdeal.Read
import proofs.«171821_j50500225466438_1_alg».proof.Proof.Gen.Pre_finite_inputs
import proofs.«171821_j50500225466438_1_alg».proof.Proof.KernelValue
import proofs.«171821_j50500225466438_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with `Cert.Bilinear.result` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
